-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x128 : Shape := ⟨2, ![640000, 128]⟩
abbrev S128x64 : Shape := ⟨2, ![128, 64]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x64 : S_.BroadcastsInDim S128x64 (![] : Fin 0 → Fin S128x64.rank)
  reducesTo_S128x64_S_d0_1 : S128x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg4 main_v34
  let main_c_13 : IVec S_ 32 := constantI S_ 32 128#32
  let main_v36 : IVec S100000 32 := broadcastInDim S100000 ![] bcast_S_S100000 main_c_13
  let main_v37 : IVec S100000 1 := cmpi .slt main_arg4 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg4 : IVec S100000 32) (main_arg6 : FVec F S128 .f32) (main_arg7 : FVec F S128x128 .f32) (main_arg8 : FVec F S128 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg4 main_v33

def fn {F : FTy → Type} [FloatOps F] (main_arg0 : FVec F S100000x128 .f32) (main_arg1 : IVec S2x640000 32) (main_arg2 : FVec F S640000x128 .f32) (main_arg3 : FVec F S128x64 .f32) (main_arg4 : IVec S100000 32) (main_arg5 : FVec F S320x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S320x128 .f32 := Host.absf main_arg5
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg4 main_arg6 main_arg7 main_arg8 main_v13 main_v16
-- ==== Kernel.lean ====
abbrev S100000x128 : Shape := ⟨2, ![100000, 128]⟩
abbrev S2x640000 : Shape := ⟨2, ![2, 640000]⟩
abbrev S640000x128 : Shape := ⟨2, ![640000, 128]⟩
abbrev S128x64 : Shape := ⟨2, ![128, 64]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩
abbrev S4000x64 : Shape := ⟨2, ![4000, 64]⟩
abbrev S64x128 : Shape := ⟨2, ![64, 128]⟩

abbrev nBuf : Space → Nat
  | .hbm => 28
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x128, .f32⟩
  | .hbm, ⟨3, _⟩ => ⟨S128x64, .f32⟩
  | .hbm, ⟨4, _⟩ => ⟨S100000, .i32⟩
  | .hbm, ⟨5, _⟩ => ⟨S320x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S100000x128, .f32⟩
  | .hbm, ⟨13, _⟩ => ⟨S640000x1, .i32⟩
  | .hbm, ⟨14, _⟩ => ⟨S100000x128, .f32⟩
  | .hbm, ⟨15, _⟩ => ⟨S100000x128, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S1x128, .f32⟩
  | .hbm, ⟨26, _⟩ => ⟨S1x128, .f32⟩
  | .hbm, ⟨27, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x1, .i32⟩
  | .local _ .vmem, ⟨5, _⟩ => ⟨S4000x1, .i32⟩
  | .local _ .vmem, ⟨6, _⟩ => ⟨S128x64, .f32⟩
  | .local _ .vmem, ⟨7, _⟩ => ⟨S320x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x640000_S1x640000_1_0 : S2x640000.Slices ![1, 0] S1x640000
  shapeCasts_S1x640000_S640000 : S1x640000.ShapeCasts S640000
  bcast_S_S100000x128 : S_.BroadcastsInDim S100000x128 (![] : Fin 0 → Fin S100000x128.rank)
  bcast_S640000_S640000x1_0 : S640000.BroadcastsInDim S640000x1 (![0] : Fin 1 → Fin S640000x1.rank)
  bitsLt_bf16_f32 : FTy.bits .bf16 < FTy.bits .f32
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  broadcasts_S4000x1_S4000x128 : S4000x1.Broadcasts S4000x128
  natLt_1_32 : 1 < 32
  inb_S128x64_S128x64_0_0 : ∀ a, (![0, 0] : Fin 2 → Nat) a + S128x64.size a ≤ S128x64.size a
  h_S128x64 : 0 < S128x64.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S320x128_S128x128_0_0 : ∀ a, (![0, 0] : Fin 2 → Nat) a + S128x128.size a ≤ S320x128.size a
  h_S128x128 : 0 < S128x128.numel
  inb_S320x128_S128x128_128_0 : ∀ a, (![128, 0] : Fin 2 → Nat) a + S128x128.size a ≤ S320x128.size a
  inb_S320x128_S64x128_256_0 : ∀ a, (![256, 0] : Fin 2 → Nat) a + S64x128.size a ≤ S320x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  scatter_S100000x128_S640000x1_S640000x128_1_0_0_1_wf : ScatterDims.WF S100000x128 S640000x1 S640000x128 [1] [0] [0] 1
  dot_S4000x128_S128x64_S4000x64_1_0_0_1_n_n_wf : DotDims.WF S4000x128 S128x64 S4000x64 [1] [0] [0] [1] [] []
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .i32 = 32 ∨ (Rect.block (s := S100000x1) S4000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x128.size a ≤ S320x128.size a
  hwx0_4 : ∀ i : grid0.Coords, EltTy.bits .f32 = 32 ∨ (Rect.block (s := S320x128) S320x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)

variable [Facts₀]

def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S320x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x128 : Shape := ⟨2, ![640000, 128]⟩
abbrev S128x64 : Shape := ⟨2, ![128, 64]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S100000x64 : Shape := ⟨2, ![100000, 64]⟩
abbrev S100000x320 : Shape := ⟨2, ![100000, 320]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x128, .f32⟩
  | .hbm, ⟨3, _⟩ => ⟨S128x64, .f32⟩
  | .hbm, ⟨4, _⟩ => ⟨S100000, .i32⟩
  | .hbm, ⟨5, _⟩ => ⟨S320x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S100000x128, .f32⟩
  | .hbm, ⟨13, _⟩ => ⟨S640000x1, .i32⟩
  | .hbm, ⟨14, _⟩ => ⟨S100000x128, .f32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x64, .f32⟩
  | .hbm, ⟨24, _⟩ => ⟨S100000x320, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  slices_S2x640000_S1x640000_1_0 : S2x640000.Slices ![1, 0] S1x640000
  shapeCasts_S1x640000_S640000 : S1x640000.ShapeCasts S640000
  bcast_S_S100000x128 : S_.BroadcastsInDim S100000x128 (![] : Fin 0 → Fin S100000x128.rank)
  bcast_S640000_S640000x1_0 : S640000.BroadcastsInDim S640000x1 (![0] : Fin 1 → Fin S640000x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x64_S100000x320_d1 : Shape.Concatenates [S100000x128, S100000x128, S100000x64] S100000x320 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S640000x1_S640000x128_1_0_0_1_wf : ScatterDims.WF S100000x128 S640000x1 S640000x128 [1] [0] [0] 1
  gather_S128x64_S100000x1_S100000x64_1_0_n_n_0_1_164_wf : GatherDims.WF S128x64 S100000x1 S100000x64 [1] [0] [] [0] [] 1 ![1, 64]
  dot_S100000x320_S320x128_S100000x128_1_0_0_1_n_n_wf : DotDims.WF S100000x320 S320x128 S100000x128 [1] [0] [0] [1] [] []
  dot_S100000x128_S128x128_S100000x128_1_0_0_1_n_n_wf : DotDims.WF S100000x128 S128x128 S100000x128 [1] [0] [0] [1] [] []

variable [Facts₀]

def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def dot_S100000x320_S320x128_S100000x128_1_0_0_1_n_n : DotDims S100000x320 S320x128 S100000x128 where
  lhsContracting := [1]
  rhsContracting := [0]
  lhsNonContracting := [0]
  rhsNonContracting := [1]
  lhsBatch := []
  rhsBatch := []
  wf := dot_S100000x320_S320x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BatchRange.lean ====
/-
  The graph ids are in range: what the precondition says about the integer input `batch`.

  The precondition is a conjunction of eight tests, the last of which is "every graph id g satisfies 0 ≤ g and
  g < 128, read as signed 32-bit words", reduced by `and` over the 100000 nodes. A word in [0, 128) read signed is the
  word of a natural number below 128, so each node's id is `BitVec.ofNat 32 g` for one g : Fin 128 — the form in which
  both programs' lookups of the graph table are read.
-/
import proofs.«404912_j20203526160533_3_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.NodeMlp

open Idealize.ShloMosaic Idealize.ShloMosaic.ValueIdx Cert.Pre_finite_inputs

/-- A signed word between 0 and 127 is the word of a number below 128. -/
theorem word_of_range (w : BitVec 32) (h0 : (0#32 : BitVec 32).toInt ≤ w.toInt) (h1 : w.toInt < (128#32 : BitVec 32).toInt) :
    ∃ g : Fin 128, w = BitVec.ofNat 32 g.val := by
  have e0 : (0#32 : BitVec 32).toInt = 0 := by decide
  have e1 : (128#32 : BitVec 32).toInt = 128 := by decide
  rw [e0] at h0
  rw [e1] at h1
  have hlt := w.isLt
  have hn : w.toNat < 128 := by
    rw [BitVec.toInt_eq_toNat_cond] at h0 h1
    split_ifs at h0 h1 <;> omega
  refine ⟨⟨w.toNat, hn⟩, ?_⟩
  apply BitVec.eq_of_toNat_eq
  simp only [BitVec.toNat_ofNat]
  omega

/-- The result of a reduce to a scalar has one index. -/
instance : Subsingleton S_.Idx := ⟨fun a b => funext fun d => d.elim0⟩

/-- Under the precondition every node's graph id is the word of a number below 128. -/
theorem batch_word [Facts] (x0 : FVec Ideal S100000x128 .f32) (x1 : IVec S2x640000 32) (x2 : FVec Ideal S640000x128 .f32)
    (x3 : FVec Ideal S128x64 .f32) (x4 : IVec S100000 32) (x5 : FVec Ideal S320x128 .f32) (x6 : FVec Ideal S128 .f32)
    (x7 : FVec Ideal S128x128 .f32) (x8 : FVec Ideal S128 .f32)
    (h : fn (F := Ideal) x0 x1 x2 x3 x4 x5 x6 x7 x8 = fun _ => 1#1) (r : Fin 100000) :
    ∃ g : Fin 128, x4 (ix1 r) = BitVec.ofNat 32 g.val := by
  have e := congrFun h ix0
  simp only [fn, fn_part1, fn_part2] at e
  have e39 := (IntOp.andi_eq_one.mp e).2
  have hall := Host.reduce_andi_all _ _ _ _ ix0 e39 (ix1 r)
  obtain ⟨hge, hlt⟩ := IntOp.andi_eq_one.mp hall
  exact word_of_range _ (IntOp.cmpi_sge.mp hge) (IntOp.cmpi_slt.mp hlt)

end Cert.NodeMlp

end
-- ==== Proof.NodeSpec.lean ====
/-
  The node update of one message-passing layer as ONE function of its arrays, over the extended reals.

  For node r (of 100000) the layer reads three things: the node's own 128 features x[r, ·], the 128 aggregated edge
  features a[r, ·] (the sum of the edge attributes whose destination is r: the same scatter on both sides, so it enters
  here as an array), and the 64 features u[g r, ·] of the graph g r (of 128) the node belongs to. The first affine map
  multiplies their concatenation [x | a | u∘g], 320 wide, by W1 [320, 128]; since the concatenation only lays the three
  bands side by side, the product is the sum of three products against the three row bands of W1 (rows 0–127,
  128–255, 256–319): `hidden` is written in that banded form. Then b1 is added, negatives are cut to 0, and the second
  affine map W2 [128, 128], b2 gives the result: `nodeOut`.

  Two facts of plain algebra are proved beside it, each valid in any additive commutative monoid or on every extended
  real, so no finiteness of the inputs is used anywhere:
  * a sum over 320 indices is the sum of the sums over its three bands (`sum_three_bands`);
  * a sum against an indicator of one index keeps that index's term (`indicator_sum`): 0 · y = 0 and 1 · y = y hold for
    every extended real y, infinite ones included.
-/
import Idealize.ShloMosaic.PureOps.Ideal
import Idealize.ShloMosaic.Lib.ValueIdx
import Mathlib.Algebra.BigOperators.Fin

noncomputable section

open scoped BigOperators

namespace Cert.NodeMlp

open Idealize.ShloMosaic Idealize.ShloMosaic.ValueIdx

/-- nodes × features -/
abbrev SNodes : Shape := ⟨2, ![100000, 128]⟩
/-- graphs × graph features -/
abbrev STable : Shape := ⟨2, ![128, 64]⟩
/-- the first layer's weights: 320 = 128 + 128 + 64 input rows -/
abbrev SW1 : Shape := ⟨2, ![320, 128]⟩
/-- the second layer's weights -/
abbrev SW2 : Shape := ⟨2, ![128, 128]⟩
/-- a bias vector -/
abbrev SBias : Shape := ⟨1, ![128]⟩

/-- Row c of W1's first band (the node features). -/
def rowX (c : Fin 128) : Fin 320 := ⟨c.val, by omega⟩
/-- Row c of W1's second band (the aggregated edge features). -/
def rowA (c : Fin 128) : Fin 320 := ⟨128 + c.val, by omega⟩
/-- Row c of W1's third band (the graph features). -/
def rowU (c : Fin 64) : Fin 320 := ⟨256 + c.val, by omega⟩

/-- The first layer before the cut at 0, for node r and hidden unit k: the three banded products, then the bias. -/
def hidden (x a : SNodes.Idx → EReal) (u : STable.Idx → EReal) (g : Fin 100000 → Fin 128)
    (W1 : SW1.Idx → EReal) (b1 : SBias.Idx → EReal) (r : Fin 100000) (k : Fin 128) : EReal :=
  ((∑ c : Fin 128, x (ix2 r c) * W1 (ix2 (rowX c) k) + ∑ c : Fin 128, a (ix2 r c) * W1 (ix2 (rowA c) k))
    + ∑ c : Fin 64, u (ix2 (g r) c) * W1 (ix2 (rowU c) k)) + b1 (ix1 k)

/-- The layer's result at (r, q): the hidden units cut at 0, through the second affine map. -/
def nodeOut (x a : SNodes.Idx → EReal) (u : STable.Idx → EReal) (g : Fin 100000 → Fin 128)
    (W1 : SW1.Idx → EReal) (b1 : SBias.Idx → EReal) (W2 : SW2.Idx → EReal) (b2 : SBias.Idx → EReal) :
    SNodes.Idx → EReal := fun j =>
  (∑ k : Fin 128, max (hidden x a u g W1 b1 (j 0) k) 0 * W2 (ix2 k (j 1))) + b2 (ix1 (j 1))

/-- A sum over the 320 rows is the sum over the three bands. -/
theorem sum_three_bands {M : Type*} [AddCommMonoid M] (f : Fin 320 → M) :
    ∑ c : Fin 320, f c = (∑ c : Fin 128, f (rowX c) + ∑ c : Fin 128, f (rowA c)) + ∑ c : Fin 64, f (rowU c) := by
  have h1 : ∑ c : Fin 320, f c
      = ∑ c : Fin 256, f (Fin.castAdd 64 c) + ∑ c : Fin 64, f (Fin.natAdd 256 c) :=
    Fin.sum_univ_add (a := 256) (b := 64) f
  have h2 : ∑ c : Fin 256, f (Fin.castAdd 64 c)
      = ∑ c : Fin 128, f (Fin.castAdd 64 (Fin.castAdd 128 c)) + ∑ c : Fin 128, f (Fin.castAdd 64 (Fin.natAdd 128 c)) :=
    Fin.sum_univ_add (a := 128) (b := 128) (fun c => f (Fin.castAdd 64 c))
  rw [h1, h2]
  rfl

/-- Against the indicator of w only w's term is left. -/
theorem indicator_sum {n : Nat} (w : Fin n) (y : Fin n → EReal) :
    ∑ g : Fin n, (if g = w then (1 : EReal) else 0) * y g = y w := by
  rw [Finset.sum_eq_single w]
  · rw [if_pos rfl, one_mul]
  · intro g _ hg
    rw [if_neg hg, zero_mul]
  · intro h
    exact absurd (Finset.mem_univ w) h

end Cert.NodeMlp

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefValue.lean ====
/-
  The reference's result array is `nodeOut`.

  The reference concatenates [x | agg | u[batch]] along the features and multiplies the 320-wide rows by W1. Read at a
  node r and a hidden unit k, the product is a sum over the 320 columns of the concatenation; split into the three bands
  (`sum_three_bands`), each band's column c reads one piece of the concatenation: x at (r, c), the aggregated edge
  features at (r, c), and the looked-up graph row at (r, c). The lookup `u[batch]` first counts a negative id from the end
  and then clamps into the table's rows; for an id that is the word of g r < 128 neither step changes it, so the row
  read is g r. Adding b1, cutting at 0, multiplying by W2 and adding b2 are read entry by entry.
-/
import proofs.«404912_j20203526160533_3_alg».proof.Proof.Gen.ReferenceIdeal.Read
import proofs.«404912_j20203526160533_3_alg».proof.Proof.NodeSpec
import proofs.«404912_j20203526160533_3_alg».proof.Proof.LibRowGatherScatter

noncomputable section

open scoped BigOperators

namespace Cert.NodeMlp.Ref

open Cert.ReferenceIdeal Cert.ReferenceIdeal.Read Cert.ReferenceIdeal.Hand Cert.NodeMlp
open Idealize.ShloMosaic Idealize.ShloMosaic.ValueIdx

variable [Cert.ReferenceIdeal.Facts]
open Cert.ReferenceIdeal.Facts

/-- The word of a number below 128, read signed, is that number. -/
theorem toInt_word (g : Fin 128) : (BitVec.ofNat 32 g.val).toInt = (g.val : ℤ) := by
  have := g.isLt
  rw [BitVec.toInt_eq_toNat_cond, BitVec.toNat_ofNat]
  have e : g.val % 2 ^ 32 = g.val := Nat.mod_eq_of_lt (by omega)
  rw [e, if_pos (by omega)]

/-- The start word of node r's lookup: counting a negative id from the end leaves the word of g r as it is. -/
theorem start_word (x4 : IVec S100000 32) (g : Fin 100000 → Fin 128)
    (hg : ∀ r, x4 (ix1 r) = BitVec.ofNat 32 (g r).val) (r : Fin 100000) :
    val_main_v10 (F := Ideal) x4 (ix2 r 0) = BitVec.ofNat 32 (g r).val := by
  rw [val_main_v10_apply, val_main_v9_apply, val_main_v6_apply, val_main_v8_apply, val_main_v5_apply, val_main_v7_apply,
    val_main_c_apply, val_main_c_0_apply]
  have ei : idx_main_v10 (ix2 r (0 : Fin 1)) = ix1 r := funext fun a => Fin.ext (by match a with | ⟨0, _⟩ => rfl)
  rw [ei, hg r, wrap_select, if_neg]
  rw [toInt_word]
  omega

/-- The looked-up graph features of node r: row g r of the table. -/
theorem lookup_apply (x3 : FVec Ideal S128x64 .f32) (x4 : IVec S100000 32) (g : Fin 100000 → Fin 128)
    (hg : ∀ r, x4 (ix1 r) = BitVec.ofNat 32 (g r).val) (r : Fin 100000) (c : Fin 64) :
    val_main_v11 (F := Ideal) x3 x4 (ix2 r c) = x3 (ix2 (g r) c) := by
  unfold val_main_v11
  show Host.gather (rowGather 128 100000 64 Cert.ReferenceIdeal.Facts₀.gather_S128x64_S100000x1_S100000x64_1_0_n_n_0_1_164_wf) x3 (val_main_v10 (F := Ideal) x4) (ix2 r c) = _
  rw [rowGather_apply_of_eq (by decide) _ x3 _ r c _ (start_word x4 g hg r)]
  congr 1
  have := (g r).isLt
  refine congrArg (fun a => ix2 a c) (Fin.ext ?_)
  show min (BitVec.ofNat 32 (g r).val).toInt.toNat (128 - 1) = (g r).val
  rw [toInt_word]
  omega

variable (x0 : FVec Ideal S100000x128 .f32) (x1 : IVec S2x640000 32) (x2 : FVec Ideal S640000x128 .f32)
  (x3 : FVec Ideal S128x64 .f32) (x4 : IVec S100000 32)

/-- Column c of the first band of the concatenation is the node's own feature c. -/
theorem cat_x (r : Fin 100000) (c : Fin 128) :
    val_main_v12 (F := Ideal) x0 x1 x2 x3 x4 (ix2 r (rowX c)) = x0 (ix2 r c) := by
  unfold val_main_v12
  refine concatenate_apply_piece 1 _ _ (ix2 r (rowX c)) 0 (by show (0 : Nat) < 3; omega) S100000x128 x0 rfl rfl 0 rfl (ix2 r c) ?_ ?_
  · intro b hb
    match b with
    | ⟨0, _⟩ => rfl
    | ⟨1, _⟩ => exact absurd rfl hb
  · show 0 + c.val = c.val
    omega

/-- Column c of the second band is the aggregated edge feature c. -/
theorem cat_a (r : Fin 100000) (c : Fin 128) :
    val_main_v12 (F := Ideal) x0 x1 x2 x3 x4 (ix2 r (rowA c)) = val_main_v4 (F := Ideal) x1 x2 (ix2 r c) := by
  unfold val_main_v12
  refine concatenate_apply_piece 1 _ _ (ix2 r (rowA c)) 1 (by show (1 : Nat) < 3; omega) S100000x128 (val_main_v4 (F := Ideal) x1 x2) rfl rfl 128 rfl (ix2 r c) ?_ ?_
  · intro b hb
    match b with
    | ⟨0, _⟩ => rfl
    | ⟨1, _⟩ => exact absurd rfl hb
  · rfl

/-- Column c of the third band is the looked-up graph feature c. -/
theorem cat_u (r : Fin 100000) (c : Fin 64) :
    val_main_v12 (F := Ideal) x0 x1 x2 x3 x4 (ix2 r (rowU c)) = val_main_v11 (F := Ideal) x3 x4 (ix2 r c) := by
  unfold val_main_v12
  refine concatenate_apply_piece 1 _ _ (ix2 r (rowU c)) 2 (by show (2 : Nat) < 3; omega) S100000x64 (val_main_v11 (F := Ideal) x3 x4) rfl rfl 256 rfl (ix2 r c) ?_ ?_
  · intro b hb
    match b with
    | ⟨0, _⟩ => rfl
    | ⟨1, _⟩ => exact absurd rfl hb
  · rfl

variable (x5 : FVec Ideal S320x128 .f32) (x6 : FVec Ideal S128 .f32) (x7 : FVec Ideal S128x128 .f32) (x8 : FVec Ideal S128 .f32)
  (g : Fin 100000 → Fin 128) (hg : ∀ r, x4 (ix1 r) = BitVec.ofNat 32 (g r).val)

include hg in
/-- The reference's hidden unit k of node r after the cut at 0. -/
theorem hidden_apply (r : Fin 100000) (k : Fin 128) :
    val_main_v17 (F := Ideal) x0 x1 x2 x3 x4 x5 x6 (ix2 r k)
      = max (hidden x0 (val_main_v4 (F := Ideal) x1 x2) x3 g x5 x6 r k) 0 := by
  rw [val_main_v17_apply, val_main_v16_apply, val_main_v13_apply, val_main_v15_apply, val_main_v14_apply,
    val_main_call0_v0_apply, val_main_call0_cst_apply]
  have el : ∀ c : Fin 320, lidx_main_v13 (ix2 r k) c = ix2 r c := fun c =>
    funext fun a => Fin.ext (by match a with | ⟨0, _⟩ => rfl | ⟨1, _⟩ => rfl)
  have er : ∀ c : Fin 320, ridx_main_v13 (ix2 r k) c = ix2 c k := fun c =>
    funext fun a => Fin.ext (by match a with | ⟨0, _⟩ => rfl | ⟨1, _⟩ => rfl)
  have eb : idx_main_v14 (idx_main_v15 (ix2 r k)) = ix1 k :=
    funext fun a => Fin.ext (by match a with | ⟨0, _⟩ => rfl)
  simp only [el, er, eb]
  rw [sum_three_bands]
  simp only [cat_x, cat_a, cat_u, lookup_apply x3 x4 g hg]
  show max (_ + _) (Ideal.ofBits .f32 0x00000000#32) = _
  rw [Ideal.ofBits_zero_f32]
  rfl

include hg in
/-- THE REFERENCE'S RESULT is `nodeOut` of its arguments and the aggregated edge features. -/
theorem result_eq :
    val_main_v21 (F := Ideal) x0 x1 x2 x3 x4 x5 x6 x7 x8
      = nodeOut x0 (val_main_v4 (F := Ideal) x1 x2) x3 g x5 x6 x7 x8 := by
  funext j
  obtain ⟨r, q, rfl⟩ : ∃ (r : Fin 100000) (q : Fin 128), j = ix2 r q := ⟨j 0, j 1, eq_ix2 j⟩
  rw [val_main_v21_apply, val_main_v18_apply, val_main_v20_apply, val_main_v19_apply]
  have el : ∀ k : Fin 128, lidx_main_v18 (ix2 r q) k = ix2 r k := fun k =>
    funext fun a => Fin.ext (by match a with | ⟨0, _⟩ => rfl | ⟨1, _⟩ => rfl)
  have er : ∀ k : Fin 128, ridx_main_v18 (ix2 r q) k = ix2 k q := fun k =>
    funext fun a => Fin.ext (by match a with | ⟨0, _⟩ => rfl | ⟨1, _⟩ => rfl)
  have eb : idx_main_v19 (idx_main_v20 (ix2 r q)) = ix1 q :=
    funext fun a => Fin.ext (by match a with | ⟨0, _⟩ => rfl)
  simp only [el, er, eb, hidden_apply x0 x1 x2 x3 x4 x5 x6 g hg]
  rfl

end Cert.NodeMlp.Ref

end
-- ==== Proof.KernelHost.lean ====
/-
  What the region finds in the arrays the host wrote before it.

  Before the pallas call the host has (i) summed the edge attributes into their destination nodes — the same scatter
  the reference performs, carried as the array `aggArr` (the change of float format after it is the identity over the
  extended reals) —, (ii) clamped the graph ids into [0, 127] and laid them as a column [100000, 1]: for an id that is
  the word of a number below 128 the clamp changes nothing —, and (iii) laid b1 and b2 as rows [1, 128].
-/
import proofs.«404912_j20203526160533_3_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

open scoped BigOperators

namespace Cert.NodeMlp.Kern

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host operations before the region leave -/

/-- The aggregated edge features: the edge attributes summed into the rows their destination words name. -/
def aggArr (c : Dev nD) : S100000x128.Idx → EReal :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0
      (shapeCast S640000 (extractStridedSlice S1x640000 ![1, 0] (m ((c : Thread nD τ).loc main_arg1)) slices_S2x640000_S1x640000_1_0) shapeCasts_S1x640000_S640000))
    (m ((c : Thread nD τ).loc main_arg2))

/-- The region finds the aggregated edge features in the second window's array (the change of format is the identity). -/
theorem V_agg (c : Dev nD) : (V m c main_v5 : S100000x128.Idx → EReal) = aggArr m c := by
  dsimp only [V]
  simp only [hostOps0, hostOps0_1, hostOps0_2, List.flatten_cons, List.flatten_nil, List.append_nil, List.cons_append, List.nil_append]
  after_results
  rfl

/-- The id column the region finds: the ids clamped into [0, 127], as a column. -/
theorem V_ids (c : Dev nD) : (V m c main_v7 : S100000x1.Idx → BitVec 32)
    = shapeCast S100000x1 (minsi (broadcastInDim S100000 ![] bcast_S_S100000 (constantI S_ 32 127#32))
        (maxsi (broadcastInDim S100000 ![] bcast_S_S100000 (constantI S_ 32 0#32)) (m ((c : Thread nD τ).loc main_arg4))))
        shapeCasts_S100000_S100000x1 := by
  dsimp only [V]
  simp only [hostOps0, hostOps0_1, hostOps0_2, List.flatten_cons, List.flatten_nil, List.append_nil, List.cons_append, List.nil_append]
  after_results
  rfl

/-- b1 as a row. -/
theorem V_b1 (c : Dev nD) : (V m c main_v8 : S1x128.Idx → EReal)
    = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results
  rfl

/-- b2 as a row. -/
theorem V_b2 (c : Dev nD) : (V m c main_v9 : S1x128.Idx → EReal)
    = shapeCast S1x128 (m ((c : Thread nD τ).loc main_arg8)) shapeCasts_S128_S1x128 := by
  dsimp only [V]
  simp only [hostOps0, hostOps0_1, hostOps0_2, List.flatten_cons, List.flatten_nil, List.append_nil, List.cons_append, List.nil_append]
  after_results
  rfl

/-- Entry (0, k) of a vector laid as a row is its entry k. -/
theorem row_apply (v : S128.Idx → EReal) (k : Fin 128) :
    shapeCast S1x128 v shapeCasts_S128_S1x128 (ix2 0 k) = v (ix1 k) :=
  shapeCast_apply v shapeCasts_S128_S1x128 (ix2 0 k) (ix1 k)
    (by rewrite [Shape.rowMajor_val_two, Shape.rowMajor_val_one]; show k.val = 0 * 128 + k.val; omega)

/-- Entry (r, 0) of a vector laid as a column is its entry r. -/
theorem col_apply (v : S100000.Idx → BitVec 32) (r : Fin 100000) :
    shapeCast S100000x1 v shapeCasts_S100000_S100000x1 (ix2 r 0) = v (ix1 r) :=
  shapeCast_apply v shapeCasts_S100000_S100000x1 (ix2 r 0) (ix1 r)
    (by rewrite [Shape.rowMajor_val_two, Shape.rowMajor_val_one]; show r.val = r.val * 1 + 0; omega)

/-- Clamping the word of a number below 128 into [0, 127] leaves it. -/
theorem clamp_word (g : Fin 128) :
    IntOp.minsi (127#32) (IntOp.maxsi (0#32) (BitVec.ofNat 32 g.val)) = BitVec.ofNat 32 g.val := by
  have := g.isLt
  revert g
  decide

end Cert.NodeMlp.Kern

end
-- ==== Proof.KernelBlock.lean ====
/-
  One block of the kernel's result at an entry.

  At a grid point the body sees 4000 nodes: their features x, their aggregated edge features a, their graph ids (a column
  of words), and the whole small arrays u, W1, b1, W2, b2. It builds, for node p, the indicator row
  (id p = g) over the 128 graphs g, and multiplies it by u: against an indicator only the term of the node's own graph is
  left, so the product's row p is u's row id p — the lookup, written as a matrix product. Then the three band products
  against the row bands of W1 are added, b1 is added, negatives are cut to 0, and W2, b2 are applied. Changes of float
  format are the identity over the extended reals. Read at (p, q) the stored value is the expression of `block_apply`.
-/
import proofs.«404912_j20203526160533_3_alg».proof.Proof.Gen.KernelIdeal.Skeleton
import proofs.«404912_j20203526160533_3_alg».proof.Proof.NodeSpec
import Idealize.ShloMosaic.PureOps.Ideal.Laws
import Idealize.ShloMosaic.Lib.ValueIdx
import Idealize.ShloMosaic.Lib.Pipeline.Value
import Idealize.ShloMosaic.Lib.Affine

noncomputable section

open scoped BigOperators

namespace Cert.NodeMlp.Kern

open Cert.KernelIdeal Cert.KernelIdeal.Gen Cert.NodeMlp
open Idealize.ShloMosaic Idealize.ShloMosaic.TcCoe Idealize.ShloMosaic.ValueIdx

variable [Cert.KernelIdeal.Facts]

/-! ### The product [4000, 128] × [128, 64] read at an entry -/

theorem lhs_lookup_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_lookup_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_lookup_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_lookup_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry (p, q) of the product into a zero accumulator: the sum over the 128 contracted indices. -/
theorem matmul_lookup_apply {φ₁ φ₂ : FTy} (l : FVec Ideal S4000x128 φ₁) (r : FVec Ideal S128x64 φ₂) (p : Fin 4000) (q : Fin 64) :
    matmul dot_S4000x128_S128x64_S4000x64_1_0_0_1_n_n none l r (constant (F := Ideal) S4000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs_lookup_0 _ _
    | ⟨1, _⟩ => exact (lhs_lookup_1 _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs_lookup_0 _ _).trans hk
    | ⟨1, _⟩ => exact rhs_lookup_1 _ _)
  rw [el, er]

/-! ### The product [4000, 128] × [128, 128] read at an entry -/

theorem lhs_wide_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_wide_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_wide_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_wide_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of the product into a zero accumulator: the sum over the 128 contracted indices. -/
theorem matmul_wide_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_wide_0 _ _).trans hk
    | ⟨1, _⟩ => exact rhs_wide_1 _ _)
  rw [el, er]

/-! ### The product [4000, 64] × [64, 128] read at an entry -/

theorem lhs_graph_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_graph_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs_graph_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs_graph_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Entry (p, q) of the product into a zero accumulator: the sum over the 64 contracted indices. -/
theorem matmul_graph_apply {φ₁ φ₂ : FTy} (l : FVec Ideal S4000x64 φ₁) (r : FVec Ideal S64x128 φ₂) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs_graph_0 _ _
    | ⟨1, _⟩ => exact (lhs_graph_1 _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs_graph_0 _ _).trans hk
    | ⟨1, _⟩ => exact rhs_graph_1 _ _)
  rw [el, er]

/-! ## The indicator row -/

/-- The indicator of "the id word is g", widened to a word and converted: 1 at the id's graph, 0 elsewhere. -/
theorem indicator_word (w : BitVec 32) (gw g : Fin 128) (hw : w = BitVec.ofNat 32 gw.val) :
    (FloatOps.sitofp (F := Ideal) .f32 (BitVec.setWidth 32 (IntOp.cmpi .eq w (BitVec.ofNat 32 g.val))) : EReal)
      = if g = gw then 1 else 0 := by
  subst hw
  by_cases h : g = gw
  · subst h
    rw [if_pos rfl, IntOp.cmpi_eq.mpr rfl]
    show (((BitVec.setWidth 32 (1#1 : BitVec 1)).toInt : ℝ) : EReal) = 1
    have e : (BitVec.setWidth 32 (1#1 : BitVec 1)).toInt = 1 := by decide
    rw [e]
    simp
  · rw [if_neg h]
    have hne : ¬IntOp.cmpi .eq (BitVec.ofNat 32 gw.val) (BitVec.ofNat 32 g.val) = 1#1 := fun e => h (by
      have e' := congrArg BitVec.toNat (IntOp.cmpi_eq.mp e)
      simp only [BitVec.toNat_ofNat] at e'
      have h1 := gw.isLt
      have h2 := g.isLt
      exact Fin.ext (by omega))
    rw [eq_zero_of_ne_one hne]
    show (((BitVec.setWidth 32 (0#1 : BitVec 1)).toInt : ℝ) : EReal) = 0
    have e : (BitVec.setWidth 32 (0#1 : BitVec 1)).toInt = 0 := by decide
    rw [e]
    simp

variable (bt : Vec Ideal S4000x1 .i32) (u : Vec Ideal S128x64 .f32) (x : Vec Ideal S4000x128 .f32) (a : Vec Ideal S4000x128 .bf16)
  (w1x w1a : Vec Ideal S128x128 .f32) (w1u : Vec Ideal S64x128 .f32) (b1 : Vec Ideal S1x128 .f32)
  (w2 : Vec Ideal S128x128 .f32) (b2 : Vec Ideal S1x128 .f32)
  (gb : Fin 4000 → Fin 128) (hb : ∀ p, bt (ix2 p 0) = BitVec.ofNat 32 (gb p).val)

include hb in
/-- Entry (p, g) of the indicator matrix the body builds from the id column. -/
theorem onehot_apply (p : Fin 4000) (g : Fin 128) :
    (truncf .bf16 (sitofp (F := Ideal) .f32 (extui 32 (cmpi .eq (broadcastTo S4000x128 bt broadcasts_S4000x1_S4000x128) (iota .tc S4000x128 32 [1] iota_S4000x128_d1_w32)) natLt_1_32)) bitsLt_bf16_f32 : FVec Ideal S4000x128 .bf16) (ix2 p g)
      = if g = gb p then 1 else 0 := by
  rw [truncf_apply, sitofp_apply, extui_apply]
  show FloatOps.sitofp .f32 ((IntOp.cmpi .eq (broadcastTo S4000x128 bt broadcasts_S4000x1_S4000x128 (ix2 p g)) (iota .tc S4000x128 32 [1] iota_S4000x128_d1_w32 (ix2 p g))).setWidth 32) = _
  rw [iota_single_apply, broadcastTo_apply _ _ _ (ix2 p 0) (fun a => by match a with | ⟨0, _⟩ => rfl | ⟨1, _⟩ => rfl)]
  exact indicator_word _ (gb p) g (hb p)

include hb in
/-- Entry (p, c) of the indicator matrix times the graph table: row (id p) of the table. -/
theorem lookup_block_apply (p : Fin 4000) (c : Fin 64) :
    matmul dot_S4000x128_S128x64_S4000x64_1_0_0_1_n_n none
        (truncf .bf16 (sitofp (F := Ideal) .f32 (extui 32 (cmpi .eq (broadcastTo S4000x128 bt broadcasts_S4000x1_S4000x128) (iota .tc S4000x128 32 [1] iota_S4000x128_d1_w32)) natLt_1_32)) bitsLt_bf16_f32 : FVec Ideal S4000x128 .bf16)
        (truncf .bf16 u bitsLt_bf16_f32 : FVec Ideal S128x64 .bf16) (constant (F := Ideal) S4000x64 .f32 0x00000000#32) (ix2 p c)
      = u (ix2 (gb p) c) := by
  rw [matmul_lookup_apply]
  simp only [onehot_apply bt gb hb, truncf_apply]
  exact indicator_sum (gb p) (fun g => u (ix2 g c))

/-- The zero the hidden units are cut at. -/
theorem zero_word : (FloatOps.ofBits (F := Ideal) .f32 0x00000000#32 : EReal) = 0 := Ideal.ofBits_zero_f32

include hb in
/-- Hidden unit k of the block's node p after the cut at 0: the three band products, the bias, the cut. -/
theorem hidden_block_apply (p : Fin 4000) (k : Fin 128) :
    k0_pay3 (F := Ideal) bt u x a w1x w1a w1u b1 (ix2 p k)
      = max (((∑ c : Fin 128, x (ix2 p c) * w1x (ix2 c k) + ∑ c : Fin 128, a (ix2 p c) * w1a (ix2 c k))
          + ∑ c : Fin 64, u (ix2 (gb p) c) * w1u (ix2 c k)) + b1 (ix2 0 k)) 0 := by
  unfold k0_pay3
  simp only [shapeCast_self]
  rw [truncf_apply, maximumf_apply, addf_apply, addf_apply, addf_apply, matmul_wide_apply, matmul_wide_apply,
    matmul_graph_apply, broadcast_apply,
    broadcastTo_apply _ _ _ (ix2 0 k) (fun a => by match a with | ⟨0, _⟩ => rfl | ⟨1, _⟩ => rfl), zero_word]
  simp only [truncf_apply, lookup_block_apply bt u gb hb]

include hb in
/-- THE BLOCK'S STORED VALUE at (p, q): the hidden units through the second affine map. -/
theorem block_apply (p : Fin 4000) (q : Fin 128) :
    k0_pay1 (F := Ideal) (k0_pay2 w2) (k0_pay3 bt u x a w1x w1a w1u b1) b2 (ix2 p q)
      = (∑ k : Fin 128, max (((∑ c : Fin 128, x (ix2 p c) * w1x (ix2 c k) + ∑ c : Fin 128, a (ix2 p c) * w1a (ix2 c k))
          + ∑ c : Fin 64, u (ix2 (gb p) c) * w1u (ix2 c k)) + b1 (ix2 0 k)) 0 * w2 (ix2 k q)) + b2 (ix2 0 q) := by
  unfold k0_pay1 k0_pay2
  simp only [shapeCast_self]
  rw [addf_apply, matmul_wide_apply,
    broadcastTo_apply _ _ _ (ix2 0 q) (fun a => by match a with | ⟨0, _⟩ => rfl | ⟨1, _⟩ => rfl)]
  simp only [truncf_apply, hidden_block_apply bt u x a w1x w1a w1u b1 gb hb]

end Cert.NodeMlp.Kern

end
-- ==== Proof.KernelArray.lean ====
/-
  The kernel's result array is `nodeOut`.

  The grid has 25 points; point t handles the 4000 nodes t·4000 … t·4000 + 3999 (`row`): its blocks of x, of the
  aggregated edge features and of the id column are those rows, and the small arrays u, W1, b1, W2, b2 are staged whole.
  Before the region the host has (i) summed the edge attributes into their destination nodes — the same scatter the
  reference performs, carried here as the array `aggArr` —, (ii) clamped the ids into [0, 127] and laid them as a
  column: for an id that is the word of g r < 128 the clamp changes nothing —, and (iii) laid b1 and b2 as rows.
  Reading each block where the block's rectangle says, the value point t stores (KernelBlock's `block_apply`) is
  `nodeOut` at the rows of t; the 25 row blocks tile the array, so the array ends holding `nodeOut`.
-/
import proofs.«404912_j20203526160533_3_alg».proof.Proof.Gen.KernelIdeal.Value
import proofs.«404912_j20203526160533_3_alg».proof.Proof.KernelHost
import proofs.«404912_j20203526160533_3_alg».proof.Proof.KernelBlock
import Idealize.ShloMosaic.Lib.Pipeline.Value
import Idealize.ShloMosaic.Lib.ValueIdx

set_option maxRecDepth 16384

noncomputable section

open scoped BigOperators

namespace Cert.NodeMlp.Kern

open Cert.KernelIdeal Cert.KernelIdeal.Gen Cert.KernelIdeal.Value Cert.NodeMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each block sits -/

theorem hz : (![0, 0] : Fin 2 → Nat) = fun _ => 0 := funext fun a => by fin_cases a <;> rfl

/-- Node p of grid point t. -/
def row (t : Fin cfg0.N) (p : Fin 4000) : Fin 100000 :=
  ⟨t.val * 4000 + p.val, by have := t.isLt; have := p.isLt; have hN : cfg0.N = 25 := N_0; omega⟩

/-- The printed index maps, decided over the 25 points: the three row-blocked inputs and the output sit at block row t,
    the small arrays at block (0, 0). -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

variable (c : Dev nD) (t : Fin cfg0.N)

/-- The block of node features at point t: rows t·4000 …. -/
theorem read_x (p : Fin 4000) (q : Fin 128) :
    iblk m c 0 t (ix2 p q) = m ((c : Thread nD τ).loc main_arg0) (ix2 (row t p) q) := by
  obtain ⟨-, -, e0, e1, -⟩ := idx_facts t
  rw [← V_main_arg0 m c]
  show V m c main_arg0 (((cfg0.win 0).blk t).view.emb (ix2 p q)) = V m c main_arg0 (ix2 (row t p) q)
  refine congrArg (V m c main_arg0) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

/-- The block of aggregated edge features at point t: the same rows. -/
theorem read_agg (p : Fin 4000) (q : Fin 128) :
    iblk m c 1 t (ix2 p q) = aggArr m c (ix2 (row t p) q) := by
  obtain ⟨-, -, -, -, e0, e1, -⟩ := idx_facts t
  rw [← V_agg m c]
  show V m c main_v5 (((cfg0.win 1).blk t).view.emb (ix2 p q)) = V m c main_v5 (ix2 (row t p) q)
  refine congrArg (V m c main_v5) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * q.val = q.val; omega

/-- The block of the id column at point t: the clamped ids of the same rows. -/
theorem read_ids (p : Fin 4000) :
    iblk m c 2 t (ix2 p 0)
      = IntOp.minsi (127#32) (IntOp.maxsi (0#32) (m ((c : Thread nD τ).loc main_arg4) (ix1 (row t p)))) := by
  obtain ⟨-, -, -, -, -, -, e0, e1, -⟩ := idx_facts t
  have e : iblk m c 2 t (ix2 p 0) = V m c main_v7 (ix2 (row t p) 0) := by
    show V m c main_v7 (((cfg0.win 2).blk t).view.emb (ix2 p 0)) = V m c main_v7 (ix2 (row t p) 0)
    refine congrArg (V m c main_v7) (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega
  rw [e, V_ids m c, col_apply]
  rfl

/-- The graph table is staged whole. -/
theorem read_u (g : Fin 128) (q : Fin 64) :
    iblk m c 3 t (ix2 g q) = m ((c : Thread nD τ).loc main_arg3) (ix2 g q) := by
  obtain ⟨-, -, -, -, -, -, -, -, e0, e1, -⟩ := idx_facts t
  rw [← V_main_arg3 m c]
  show V m c main_arg3 (((cfg0.win 3).blk t).view.emb (ix2 g q)) = V m c main_arg3 (ix2 g q)
  refine congrArg (V m c main_arg3) (funext fun a => Fin.ext ?_)
  match a with
  | ⟨0, _⟩ => show win0_3.index t (0 : Fin 2) * 128 + 1 * g.val = g.val; omega
  | ⟨1, _⟩ => show win0_3.index t (1 : Fin 2) * 64 + 1 * q.val = q.val; omega

/-- W1 is staged whole. -/
theorem read_w1 (j : Fin 320) (k : Fin 128) :
    iblk m c 4 t (ix2 j k) = m ((c : Thread nD τ).loc main_arg5) (ix2 j k) := by
  obtain ⟨-, -, -, -, -, -, -, -, -, -, e0, e1, -⟩ := idx_facts t
  rw [← V_main_arg5 m c]
  show V m c main_arg5 (((cfg0.win 4).blk t).view.emb (ix2 j k)) = V m c main_arg5 (ix2 j k)
  refine congrArg (V m c main_arg5) (funext fun a => Fin.ext ?_)
  match a with
  | ⟨0, _⟩ => show win0_4.index t (0 : Fin 2) * 320 + 1 * j.val = j.val; omega
  | ⟨1, _⟩ => show win0_4.index t (1 : Fin 2) * 128 + 1 * k.val = k.val; omega

/-- b1's row is staged whole. -/
theorem read_b1 (k : Fin 128) :
    iblk m c 5 t (ix2 0 k) = m ((c : Thread nD τ).loc main_arg6) (ix1 k) := by
  obtain ⟨-, -, -, -, -, -, -, -, -, -, -, -, e0, e1, -⟩ := idx_facts t
  have e : iblk m c 5 t (ix2 0 k) = V m c main_v8 (ix2 0 k) := by
    show V m c main_v8 (((cfg0.win 5).blk t).view.emb (ix2 0 k)) = V m c main_v8 (ix2 0 k)
    refine congrArg (V m c main_v8) (funext fun a => Fin.ext ?_)
    match a with
    | ⟨0, _⟩ => show win0_5.index t (0 : Fin 2) * 1 + 1 * 0 = 0; omega
    | ⟨1, _⟩ => show win0_5.index t (1 : Fin 2) * 128 + 1 * k.val = k.val; omega
  rw [e, V_b1 m c, row_apply]

/-- W2 is staged whole. -/
theorem read_w2 (k q : Fin 128) :
    iblk m c 6 t (ix2 k q) = m ((c : Thread nD τ).loc main_arg7) (ix2 k q) := by
  obtain ⟨-, -, -, -, -, -, -, -, -, -, -, -, -, -, e0, e1, -⟩ := idx_facts t
  rw [← V_main_arg7 m c]
  show V m c main_arg7 (((cfg0.win 6).blk t).view.emb (ix2 k q)) = V m c main_arg7 (ix2 k q)
  refine congrArg (V m c main_arg7) (funext fun a => Fin.ext ?_)
  match a with
  | ⟨0, _⟩ => show win0_6.index t (0 : Fin 2) * 128 + 1 * k.val = k.val; omega
  | ⟨1, _⟩ => show win0_6.index t (1 : Fin 2) * 128 + 1 * q.val = q.val; omega

/-- b2's row is staged whole. -/
theorem read_b2 (q : Fin 128) :
    iblk m c 7 t (ix2 0 q) = m ((c : Thread nD τ).loc main_arg8) (ix1 q) := by
  obtain ⟨-, -, -, -, -, -, -, -, -, -, -, -, -, -, -, -, e0, e1⟩ := idx_facts t
  have e : iblk m c 7 t (ix2 0 q) = V m c main_v9 (ix2 0 q) := by
    show V m c main_v9 (((cfg0.win 7).blk t).view.emb (ix2 0 q)) = V m c main_v9 (ix2 0 q)
    refine congrArg (V m c main_v9) (funext fun a => Fin.ext ?_)
    match a with
    | ⟨0, _⟩ => show win0_7.index t (0 : Fin 2) * 1 + 1 * 0 = 0; omega
    | ⟨1, _⟩ => show win0_7.index t (1 : Fin 2) * 128 + 1 * q.val = q.val; omega
  rw [e, V_b2 m c, row_apply]

/-! ## The three row bands of W1 the body loads -/

/-- Rows 0–127. -/
theorem band_x (W : Vec Ideal S320x128 .f32) (j k : Fin 128) : View.ld W r0_3 (ix2 j k) = W (ix2 (rowX j) k) := by
  show W (r0_3.idx (ix2 j k)) = _
  refine congrArg W (funext fun a => Fin.ext ?_)
  match a with
  | ⟨0, _⟩ => show 0 + 1 * j.val = j.val; omega
  | ⟨1, _⟩ => show 0 + 1 * k.val = k.val; omega

/-- Rows 128–255. -/
theorem band_a (W : Vec Ideal S320x128 .f32) (j k : Fin 128) : View.ld W r0_4 (ix2 j k) = W (ix2 (rowA j) k) := by
  show W (r0_4.idx (ix2 j k)) = _
  refine congrArg W (funext fun a => Fin.ext ?_)
  match a with
  | ⟨0, _⟩ => show 128 + 1 * j.val = 128 + j.val; omega
  | ⟨1, _⟩ => show 0 + 1 * k.val = k.val; omega

/-- Rows 256–319. -/
theorem band_u (W : Vec Ideal S320x128 .f32) (j : Fin 64) (k : Fin 128) : View.ld W r0_5 (ix2 j k) = W (ix2 (rowU j) k) := by
  show W (r0_5.idx (ix2 j k)) = _
  refine congrArg W (funext fun a => Fin.ext ?_)
  match a with
  | ⟨0, _⟩ => show 256 + 1 * j.val = 256 + j.val; omega
  | ⟨1, _⟩ => show 0 + 1 * k.val = k.val; omega

theorem w1_x (j k : Fin 128) :
    View.ld (iblk m c 4 t) r0_3 (ix2 j k) = m ((c : Thread nD τ).loc main_arg5) (ix2 (rowX j) k) :=
  (band_x (iblk m c 4 t) j k).trans (read_w1 m c t (rowX j) k)
theorem w1_a (j k : Fin 128) :
    View.ld (iblk m c 4 t) r0_4 (ix2 j k) = m ((c : Thread nD τ).loc main_arg5) (ix2 (rowA j) k) :=
  (band_a (iblk m c 4 t) j k).trans (read_w1 m c t (rowA j) k)
theorem w1_u (j : Fin 64) (k : Fin 128) :
    View.ld (iblk m c 4 t) r0_5 (ix2 j k) = m ((c : Thread nD τ).loc main_arg5) (ix2 (rowU j) k) :=
  (band_u (iblk m c 4 t) j k).trans (read_w1 m c t (rowU j) k)

/-! ## What a point writes back, the cover, and the array -/

variable (g : Fin 100000 → Fin 128) (hg : ∀ r, m ((c : Thread nD τ).loc main_arg4) (ix1 r) = BitVec.ofNat 32 (g r).val)

include hg in
/-- WHAT POINT t WRITES BACK is block t of `nodeOut`. -/
theorem flushed_eq :
    (dats m 0 c).flushed 8 t = ((cfg0.win 8).blk t).view.read (Elt Ideal)
      (nodeOut (m ((c : Thread nD τ).loc main_arg0)) (aggArr m c) (m ((c : Thread nD τ).loc main_arg3)) g
        (m ((c : Thread nD τ).loc main_arg5)) (m ((c : Thread nD τ).loc main_arg6))
        (m ((c : Thread nD τ).loc main_arg7)) (m ((c : Thread nD τ).loc main_arg8))) := by
  rw [flushed8]
  unfold out0_8
  rw [View.canon_unit_zero hz]
  simp only [View.ld_unit_zero (S := S4000x128) hz, View.ld_unit_zero (S := S4000x1) hz, View.ld_unit_zero (S := S128x64) hz,
    View.ld_unit_zero (S := S1x128) hz, View.ld_unit_zero (S := S128x128) hz]
  have hb : ∀ p : Fin 4000, iblk m c 2 t (ix2 p 0) = BitVec.ofNat 32 (g (row t p)).val := fun p => by
    rw [read_ids, hg, clamp_word]
  obtain ⟨e0, e1, -⟩ := idx_facts t
  refine funext fun (y : S4000x128.Idx) => ?_
  obtain ⟨p, q, rfl⟩ : ∃ (p : Fin 4000) (q : Fin 128), y = ix2 p q := ⟨y 0, y 1, eq_ix2 y⟩
  have eo : ((cfg0.win 8).blk t).view.emb (ix2 p q) = ix2 (row t p) q := funext fun a => Fin.ext (by
    match a with
    | ⟨0, _⟩ => show win0_8.index t (0 : Fin 2) * 4000 + 1 * p.val = t.val * 4000 + p.val; omega
    | ⟨1, _⟩ => show win0_8.index t (1 : Fin 2) * 128 + 1 * q.val = q.val; omega)
  show k0_pay1 (F := Ideal) (k0_pay2 (iblk m c 6 t))
        (k0_pay3 (iblk m c 2 t) (iblk m c 3 t) (iblk m c 0 t) (iblk m c 1 t) (View.ld (iblk m c 4 t) r0_3)
          (View.ld (iblk m c 4 t) r0_4) (View.ld (iblk m c 4 t) r0_5) (iblk m c 5 t)) (iblk m c 7 t) (ix2 p q)
      = nodeOut (m ((c : Thread nD τ).loc main_arg0)) (aggArr m c) (m ((c : Thread nD τ).loc main_arg3)) g
        (m ((c : Thread nD τ).loc main_arg5)) (m ((c : Thread nD τ).loc main_arg6))
        (m ((c : Thread nD τ).loc main_arg7)) (m ((c : Thread nD τ).loc main_arg8)) (((cfg0.win 8).blk t).view.emb (ix2 p q))
  rw [eo]
  refine (block_apply (iblk m c 2 t) (iblk m c 3 t) (iblk m c 0 t) (iblk m c 1 t) (View.ld (iblk m c 4 t) r0_3)
    (View.ld (iblk m c 4 t) r0_4) (View.ld (iblk m c 4 t) r0_5) (iblk m c 5 t) (iblk m c 6 t) (iblk m c 7 t)
    (fun p => g (row t p)) hb p q).trans ?_
  simp only [read_x, read_agg, read_u, w1_x, w1_a, w1_u, read_b1, read_w2, read_b2]
  rfl

/-- An index of the array is in point t's block iff each coordinate is in the block's range on its axis. -/
theorem mem_blk (i : S100000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v10).slice (win0_8.rect t)).set ↔ _
  rw [View.set_slice_whole, Rect.mem_set_unit]
  exact Iff.rfl

/-- The 25 row blocks tile the array: row r is in the block of point r / 4000. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨e0, e1, -⟩ := idx_facts t
  refine ⟨t, flush0_8 t, ?_⟩
  rw [mem_blk]
  intro a
  match a with
  | ⟨0, _⟩ =>
    show win0_8.index t (0 : Fin 2) * 4000 ≤ (i 0).val ∧ (i 0).val < win0_8.index t (0 : Fin 2) * 4000 + 4000
    omega
  | ⟨1, _⟩ =>
    show win0_8.index t (1 : Fin 2) * 128 ≤ (i 1).val ∧ (i 1).val < win0_8.index t (1 : Fin 2) * 128 + 128
    omega

include hg in
/-- THE ARRAY after the run is `nodeOut`. -/
theorem final :
    (dats m 0 c).arrAt 8 cfg0.N
      = nodeOut (m ((c : Thread nD τ).loc main_arg0)) (aggArr m c) (m ((c : Thread nD τ).loc main_arg3)) g
        (m ((c : Thread nD τ).loc main_arg5)) (m ((c : Thread nD τ).loc main_arg6))
        (m ((c : Thread nD τ).loc main_arg7)) (m ((c : Thread nD τ).loc main_arg8)) :=
  (dats m 0 c).arrAt_eq_of_cover 8 _ (fun t _ => flushed_eq m c t g hg) cover

end Cert.NodeMlp.Kern

end
-- ==== Proof.lean ====
/-
  A node update of a message-passing layer on 100000 nodes, 640000 edges and 128 graphs:

      agg[r, ·]  =  the sum of edge_attr[e, ·] over the edges e whose destination col[e] is r,
      out        =  relu([x | agg | u[batch]] · W1 + b1) · W2 + b2.

  The kernel computes the aggregation on the host exactly as the reference does, and does the rest tile by tile, 4000
  nodes at a time: it looks the graph rows up by multiplying an indicator matrix (batch[r] = g) with u, and multiplies
  x, agg and the looked-up rows by the three row bands of W1 instead of concatenating first. Over the extended reals
  * a sum against an indicator of one index is that index's term (0 · y = 0 and 1 · y = y for every y), so the
    indicator product IS the lookup when batch[r] is a row of u;
  * a sum over the 320 concatenated columns is the sum of the three band sums (additions only re-bracketed);
  * the changes of float format are the identity.
  None of these needs the inputs to be finite. What the equivalence does need is that the graph ids are rows of u,
  0 ≤ batch[r] < 128: for a negative id the reference counts from the end of the table while the kernel clamps to row 0,
  so the two differ there; the precondition states that range, and it is the only part of the precondition used
  (`BatchRange`). Both programs end at `NodeMlp.nodeOut` of the arguments and the aggregated edge features
  (`KernelArray.final`, `RefValue.result_eq`); the aggregation is the same term on both sides and is never opened.
  The three frame claims are the generated frames (the reference's frame is its generated run with the result dropped);
  the idealization rewrote nothing, so `preserves` asks nothing.
-/
import proofs.«404912_j20203526160533_3_alg».proof.Defs
import proofs.«404912_j20203526160533_3_alg».proof.Proof.Gen.Kernel
import proofs.«404912_j20203526160533_3_alg».proof.Proof.Gen.Kernel.Skeleton
import proofs.«404912_j20203526160533_3_alg».proof.Proof.Gen.Kernel.Launch
import proofs.«404912_j20203526160533_3_alg».proof.Proof.Gen.Kernel.Points
import proofs.«404912_j20203526160533_3_alg».proof.Proof.Gen.Kernel.Frame
import proofs.«404912_j20203526160533_3_alg».proof.Proof.Gen.KernelIdeal
import proofs.«404912_j20203526160533_3_alg».proof.Proof.Gen.KernelIdeal.Skeleton
import proofs.«404912_j20203526160533_3_alg».proof.Proof.Gen.KernelIdeal.Launch
import proofs.«404912_j20203526160533_3_alg».proof.Proof.Gen.KernelIdeal.Points
import proofs.«404912_j20203526160533_3_alg».proof.Proof.Gen.KernelIdeal.Frame
import proofs.«404912_j20203526160533_3_alg».proof.Proof.Gen.ReferenceIdeal
import proofs.«404912_j20203526160533_3_alg».proof.Proof.Gen.Pre_finite_inputs
import proofs.«404912_j20203526160533_3_alg».proof.Proof.Gen.KernelIdeal.Value
import proofs.«404912_j20203526160533_3_alg».proof.Proof.Gen.ReferenceIdeal.Run
import proofs.«404912_j20203526160533_3_alg».proof.Proof.Gen.ReferenceIdeal.Read
import proofs.«404912_j20203526160533_3_alg».proof.Proof.BatchRange
import proofs.«404912_j20203526160533_3_alg».proof.Proof.RefValue
import proofs.«404912_j20203526160533_3_alg».proof.Proof.KernelArray
import Idealize.ShloMosaic.Adequacy
import Idealize.ShloMosaic.Init

noncomputable section

namespace Cert.Proof

open Idealize.ShloMosaic Idealize.ShloMosaic.ValueIdx Idealize.SL.Sem Cert.NodeMlp

/-- The word-level kernel runs and leaves its arguments: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference is a host program: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at `nodeOut` of the arguments, with the graph ids read as rows of the graph table. -/
theorem algebraic : Cert.algebraic_KernelIdeal_ReferenceIdeal := by
  intro m ρ m' ρ' hpre hagree
  have hids : ∀ c : Dev Cert.KernelIdeal.nD, ∃ g : Fin 100000 → Fin 128,
      ∀ r, m ((c.tc : Thread Cert.KernelIdeal.nD Cert.KernelIdeal.τ).loc Cert.KernelIdeal.main_arg4) (ix1 r) = BitVec.ofNat 32 (g r).val := fun c => by
    choose g hg using fun r => batch_word _ _ _ _ _ _ _ _ _ (hpre c) r
    exact ⟨g, hg⟩
  choose g hg using hids
  refine ⟨fun c => nodeOut (m ((c.tc : Thread Cert.KernelIdeal.nD Cert.KernelIdeal.τ).loc Cert.KernelIdeal.main_arg0))
      (Kern.aggArr m c) (m ((c.tc : Thread Cert.KernelIdeal.nD Cert.KernelIdeal.τ).loc Cert.KernelIdeal.main_arg3)) (g c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Kern.final m c (g c) (hg c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v21_eq,
      Ref.result_eq _ _ _ _ _ _ _ _ _ (g c) (by rw [a4]; exact hg c), a0, a1, a2, a3, a5, a6, a7, a8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
